-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S16x1x85 : Shape := ⟨3, ![16, 1, 85]⟩
abbrev S1x64x256x256 : Shape := ⟨4, ![1, 64, 256, 256]⟩
abbrev S1x1x85 : Shape := ⟨3, ![1, 1, 85]⟩
abbrev S64x256x256 : Shape := ⟨3, ![64, 256, 256]⟩
abbrev S256x256 : Shape := ⟨2, ![256, 256]⟩
abbrev S8x32x8x32 : Shape := ⟨4, ![8, 32, 8, 32]⟩
abbrev S8x8 : Shape := ⟨2, ![8, 8]⟩
abbrev S1x8x1x8 : Shape := ⟨4, ![1, 8, 1, 8]⟩
abbrev S1x1 : Shape := ⟨2, ![1, 1]⟩
abbrev S1 : Shape := ⟨1, ![1]⟩
abbrev S2x4x2x4 : Shape := ⟨4, ![2, 4, 2, 4]⟩
abbrev S2x2 : Shape := ⟨2, ![2, 2]⟩
abbrev S4 : Shape := ⟨1, ![4]⟩
abbrev S4x2x4x2 : Shape := ⟨4, ![4, 2, 4, 2]⟩
abbrev S4x4 : Shape := ⟨2, ![4, 4]⟩
abbrev S16 : Shape := ⟨1, ![16]⟩
abbrev S8x1x8x1 : Shape := ⟨4, ![8, 1, 8, 1]⟩
abbrev S64 : Shape := ⟨1, ![64]⟩
abbrev S85 : Shape := ⟨1, ![85]⟩
abbrev S16x85 : Shape := ⟨2, ![16, 85]⟩

abbrev nBuf : Space → Nat
  | .hbm => 3
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S16x1x85, .f32⟩
  | .hbm, ⟨2, _⟩ => ⟨S16x85, .f32⟩
  | .local _ .vmem, ⟨0, _⟩ => ⟨S1x64x256x256, .f32⟩
  | .local _ .vmem, ⟨1, _⟩ => ⟨S1x64x256x256, .f32⟩
  | .local _ .vmem, ⟨2, _⟩ => ⟨S1x1x85, .f32⟩
  | .local _ .vmem, ⟨3, _⟩ => ⟨S1x1x85, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  reduces_S64x256x256_S256x256 : S64x256x256.Reduces [0] S256x256
  shapeCasts_S256x256_S8x32x8x32 : S256x256.ShapeCasts S8x32x8x32
  reduces_S8x32x8x32_S8x8 : S8x32x8x32.Reduces [1, 3] S8x8
  shapeCasts_S8x8_S1x8x1x8 : S8x8.ShapeCasts S1x8x1x8
  reduces_S1x8x1x8_S1x1 : S1x8x1x8.Reduces [1, 3] S1x1
  shapeCasts_S1x1_S1 : S1x1.ShapeCasts S1
  shapeCasts_S8x8_S2x4x2x4 : S8x8.ShapeCasts S2x4x2x4
  reduces_S2x4x2x4_S2x2 : S2x4x2x4.Reduces [1, 3] S2x2
  shapeCasts_S2x2_S4 : S2x2.ShapeCasts S4
  shapeCasts_S8x8_S4x2x4x2 : S8x8.ShapeCasts S4x2x4x2
  reduces_S4x2x4x2_S4x4 : S4x2x4x2.Reduces [1, 3] S4x4
  shapeCasts_S4x4_S16 : S4x4.ShapeCasts S16
  shapeCasts_S8x8_S8x1x8x1 : S8x8.ShapeCasts S8x1x8x1
  reduces_S8x1x8x1_S8x8 : S8x1x8x1.Reduces [1, 3] S8x8
  shapeCasts_S8x8_S64 : S8x8.ShapeCasts S64
  concatenates_S1_S4_S16_S64_S85_d0 : Shape.Concatenates [S1, S4, S16, S64] S85 0
  shapeCasts_S85_S1x1x85 : S85.ShapeCasts S1x1x85
  inb_S1x1x85_S1x1x85_0_0_0 : ∀ a, (![0, 0, 0] : Fin 3 → Nat) a + S1x1x85.size a ≤ S1x1x85.size a
  h_S1x1x85 : 0 < S1x1x85.numel
  shapeCasts_S16x1x85_S16x85 : S16x1x85.ShapeCasts S16x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S16x64x256x256.size a
  hwx0_0 : ∀ i : grid0.Coords, EltTy.bits .f32 = 32 ∨ (Rect.block (s := S16x64x256x256) S1x64x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x85.size a ≤ S16x1x85.size a
  hwx0_1 : ∀ i : grid0.Coords, EltTy.bits .f32 = 32 ∨ (Rect.block (s := S16x1x85) S1x1x85.size (cc0_transform_1 i) (hinb0_1 i)).WholeWords (EltTy.packing .f32)

variable [Facts₀]

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x85.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16x64x1x256x1x256 : Shape := ⟨6, ![16, 64, 1, 256, 1, 256]⟩
abbrev S_ : Shape := ⟨0, ![]⟩
abbrev S16x1x1 : Shape := ⟨3, ![16, 1, 1]⟩
abbrev S16x1 : Shape := ⟨2, ![16, 1]⟩
abbrev S16x64x2x128x2x128 : Shape := ⟨6, ![16, 64, 2, 128, 2, 128]⟩
abbrev S16x2x2 : Shape := ⟨3, ![16, 2, 2]⟩
abbrev S16x4 : Shape := ⟨2, ![16, 4]⟩
abbrev S16x64x4x64x4x64 : Shape := ⟨6, ![16, 64, 4, 64, 4, 64]⟩
abbrev S16x4x4 : Shape := ⟨3, ![16, 4, 4]⟩
abbrev S16x16 : Shape := ⟨2, ![16, 16]⟩
abbrev S16x64x8x32x8x32 : Shape := ⟨6, ![16, 64, 8, 32, 8, 32]⟩
abbrev S16x8x8 : Shape := ⟨3, ![16, 8, 8]⟩
abbrev S16x64 : Shape := ⟨2, ![16, 64]⟩
abbrev S16x85 : Shape := ⟨2, ![16, 85]⟩

abbrev nBuf : Space → Nat
  | .hbm => 30
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x1x256x1x256, .f32⟩
  | .hbm, ⟨2, _⟩ => ⟨S_, .f32⟩
  | .hbm, ⟨3, _⟩ => ⟨S16x1x1, .f32⟩
  | .hbm, ⟨4, _⟩ => ⟨S_, .f32⟩
  | .hbm, ⟨5, _⟩ => ⟨S16x1x1, .f32⟩
  | .hbm, ⟨6, _⟩ => ⟨S16x1x1, .f32⟩
  | .hbm, ⟨7, _⟩ => ⟨S16x1, .f32⟩
  | .hbm, ⟨8, _⟩ => ⟨S16x64x2x128x2x128, .f32⟩
  | .hbm, ⟨9, _⟩ => ⟨S_, .f32⟩
  | .hbm, ⟨10, _⟩ => ⟨S16x2x2, .f32⟩
  | .hbm, ⟨11, _⟩ => ⟨S_, .f32⟩
  | .hbm, ⟨12, _⟩ => ⟨S16x2x2, .f32⟩
  | .hbm, ⟨13, _⟩ => ⟨S16x2x2, .f32⟩
  | .hbm, ⟨14, _⟩ => ⟨S16x4, .f32⟩
  | .hbm, ⟨15, _⟩ => ⟨S16x64x4x64x4x64, .f32⟩
  | .hbm, ⟨16, _⟩ => ⟨S_, .f32⟩
  | .hbm, ⟨17, _⟩ => ⟨S16x4x4, .f32⟩
  | .hbm, ⟨18, _⟩ => ⟨S_, .f32⟩
  | .hbm, ⟨19, _⟩ => ⟨S16x4x4, .f32⟩
  | .hbm, ⟨20, _⟩ => ⟨S16x4x4, .f32⟩
  | .hbm, ⟨21, _⟩ => ⟨S16x16, .f32⟩
  | .hbm, ⟨22, _⟩ => ⟨S16x64x8x32x8x32, .f32⟩
  | .hbm, ⟨23, _⟩ => ⟨S_, .f32⟩
  | .hbm, ⟨24, _⟩ => ⟨S16x8x8, .f32⟩
  | .hbm, ⟨25, _⟩ => ⟨S_, .f32⟩
  | .hbm, ⟨26, _⟩ => ⟨S16x8x8, .f32⟩
  | .hbm, ⟨27, _⟩ => ⟨S16x8x8, .f32⟩
  | .hbm, ⟨28, _⟩ => ⟨S16x64, .f32⟩
  | .hbm, ⟨29, _⟩ => ⟨S16x85, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_5 : Ref sig .tc := ⟨.hbm, 23, rfl⟩
abbrev main_v16 : Ref sig .tc := ⟨.hbm, 24, rfl⟩
abbrev main_cst_6 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  shapeCasts_S16x64x256x256_S16x64x1x256x1x256 : S16x64x256x256.ShapeCasts S16x64x1x256x1x256
  reducesTo_S16x64x1x256x1x256_S16x1x1_d1_3_5 : S16x64x1x256x1x256.ReducesTo [1, 3, 5] S16x1x1
  h_S_ : 0 < S_.numel
  bcast_S_S16x1x1 : S_.BroadcastsInDim S16x1x1 (![] : Fin 0 → Fin S16x1x1.rank)
  shapeCasts_S16x1x1_S16x1 : S16x1x1.ShapeCasts S16x1
  shapeCasts_S16x64x256x256_S16x64x2x128x2x128 : S16x64x256x256.ShapeCasts S16x64x2x128x2x128
  reducesTo_S16x64x2x128x2x128_S16x2x2_d1_3_5 : S16x64x2x128x2x128.ReducesTo [1, 3, 5] S16x2x2
  bcast_S_S16x2x2 : S_.BroadcastsInDim S16x2x2 (![] : Fin 0 → Fin S16x2x2.rank)
  shapeCasts_S16x2x2_S16x4 : S16x2x2.ShapeCasts S16x4
  shapeCasts_S16x64x256x256_S16x64x4x64x4x64 : S16x64x256x256.ShapeCasts S16x64x4x64x4x64
  reducesTo_S16x64x4x64x4x64_S16x4x4_d1_3_5 : S16x64x4x64x4x64.ReducesTo [1, 3, 5] S16x4x4
  bcast_S_S16x4x4 : S_.BroadcastsInDim S16x4x4 (![] : Fin 0 → Fin S16x4x4.rank)
  shapeCasts_S16x4x4_S16x16 : S16x4x4.ShapeCasts S16x16
  shapeCasts_S16x64x256x256_S16x64x8x32x8x32 : S16x64x256x256.ShapeCasts S16x64x8x32x8x32
  reducesTo_S16x64x8x32x8x32_S16x8x8_d1_3_5 : S16x64x8x32x8x32.ReducesTo [1, 3, 5] S16x8x8
  bcast_S_S16x8x8 : S_.BroadcastsInDim S16x8x8 (![] : Fin 0 → Fin S16x8x8.rank)
  shapeCasts_S16x8x8_S16x64 : S16x8x8.ShapeCasts S16x64
  concatenates_S16x1_S16x4_S16x16_S16x64_S16x85_d1 : Shape.Concatenates [S16x1, S16x4, S16x16, S16x64] S16x85 1

variable [Facts₀]

class Facts : Prop extends Facts₀ where

variable [Facts]
-- ==== Proof.LibAxisSums.lean ====
/-
  General lemmas on sums, at the ideal values, with no program in sight.

  (1) Sums over ranges laid end to end: g consecutive blocks of length k are one range of length g * k
  (`sum_range_blocks`), the same on two axes at once (`sum_range_tiles`); sums over `Fin` coordinates of a function of
  their values as sums over ranges (`fin_sum2`, `fin_sum3`). They hold in any commutative additive monoid, so on the
  extended reals with no finiteness assumption.

  (2) A sum over SEVERAL axes read at an index of the kept axes, as the iterated sum over the dropped coordinates:
  the vector unit's sum of a rank-4 array over its second and fourth axes (`reduceAdd_13`, `multiReduction_13`) and the
  host's sum of a rank-6 array over its second, fourth and sixth axes (`hostReduceAdd_135`) — the shapes a pooling
  over square bins produces ([n, g, n, g] → [n, n]; [B, C, n, S, n, S] → [B, n, n]). The extents are arbitrary.
-/
import Idealize.ShloMosaic.PureOps.Ideal.Laws
import Idealize.ShloMosaic.Lib.ValueIdx
import Idealize.ShloMosaic.Lib.ValueIdxRank6

noncomputable section

namespace AxisSums

open Idealize.ShloMosaic Idealize.ShloMosaic.ValueIdx
open Finset

/-! ## Sums over ranges -/

/-- If J < n and a < g then J * g + a < n * g: coordinate a of block J of width g lies among n blocks. -/
theorem mul_add_lt {n g J a : ℕ} (hJ : J < n) (ha : a < g) : J * g + a < n * g :=
  calc J * g + a < J * g + g := Nat.add_lt_add_left ha _
    _ = (J + 1) * g := by ring
    _ ≤ n * g := Nat.mul_le_mul_right g hJ

/-- g blocks of length k, starting at block P, laid end to end: one range of length g * k starting at P * k. -/
theorem sum_range_blocks {M : Type*} [AddCommMonoid M] (f : ℕ → M) (P g k : ℕ) :
    ∑ a ∈ range g, ∑ r ∈ range k, f ((P + a) * k + r) = ∑ h ∈ range (g * k), f (P * k + h) := by
  induction g with
  | zero => simp
  | succ g ih =>
    rw [sum_range_succ, ih, Nat.succ_mul, sum_range_add]
    congr 1
    refine sum_congr rfl fun r _ => ?_
    congr 1
    ring

/-- The same on two axes at once: a g-by-g patch of k-by-k tiles is one (g * k)-by-(g * k) square. -/
theorem sum_range_tiles {M : Type*} [AddCommMonoid M] (f : ℕ → ℕ → M) (P Q g k : ℕ) :
    ∑ a ∈ range g, ∑ b ∈ range g, ∑ r ∈ range k, ∑ s ∈ range k, f ((P + a) * k + r) ((Q + b) * k + s)
      = ∑ h ∈ range (g * k), ∑ w ∈ range (g * k), f (P * k + h) (Q * k + w) := by
  have e1 : ∀ a ∈ range g, ∑ b ∈ range g, ∑ r ∈ range k, ∑ s ∈ range k, f ((P + a) * k + r) ((Q + b) * k + s)
      = ∑ r ∈ range k, ∑ w ∈ range (g * k), f ((P + a) * k + r) (Q * k + w) := by
    intro a _
    rw [sum_comm]
    refine sum_congr rfl fun r _ => ?_
    exact sum_range_blocks (fun w => f ((P + a) * k + r) w) Q g k
  rw [sum_congr rfl e1]
  exact sum_range_blocks (fun h => ∑ w ∈ range (g * k), f h (Q * k + w)) P g k

/-- A sum over `Fin` coordinates of a function of their values is the sum over the range. -/
theorem fin_sum2 {M : Type*} [AddCommMonoid M] (f : ℕ → ℕ → M) (n₁ n₂ : ℕ) :
    ∑ a : Fin n₁, ∑ b : Fin n₂, f a b = ∑ a ∈ range n₁, ∑ b ∈ range n₂, f a b := by
  rw [← Fin.sum_univ_eq_sum_range (fun a => ∑ b ∈ range n₂, f a b)]
  exact Fintype.sum_congr _ _ fun a => Fin.sum_univ_eq_sum_range (fun b => f a b) n₂

/-- The same for three coordinates. -/
theorem fin_sum3 {M : Type*} [AddCommMonoid M] (f : ℕ → ℕ → ℕ → M) (n₁ n₂ n₃ : ℕ) :
    ∑ a : Fin n₁, ∑ b : Fin n₂, ∑ c : Fin n₃, f a b c = ∑ a ∈ range n₁, ∑ b ∈ range n₂, ∑ c ∈ range n₃, f a b c := by
  rw [← Fin.sum_univ_eq_sum_range (fun a => ∑ b ∈ range n₂, ∑ c ∈ range n₃, f a b c)]
  exact Fintype.sum_congr _ _ fun a => fin_sum2 (f a) n₂ n₃

/-! ## Sums over several axes, at an index of the kept ones -/

section Rank4

variable {A B C D : ℕ} (h : (⟨4, ![A, B, C, D]⟩ : Shape).Reduces [1, 3] ⟨2, ![A, C]⟩)

/-- Dropping the second and fourth axes keeps the first coordinate … -/
theorem drop13_0 (i : (⟨4, ![A, B, C, D]⟩ : Shape).Idx) : ((h.drop i 0 : Fin A) : ℕ) = (i 0).val :=
  h.drop_apply_val_of_eq i (0 : Fin 2) (0 : Fin 4) (Nat.zero_lt_succ 1) rfl

/-- … and the third. -/
theorem drop13_1 (i : (⟨4, ![A, B, C, D]⟩ : Shape).Idx) : ((h.drop i 1 : Fin C) : ℕ) = (i 2).val :=
  h.drop_apply_val_of_eq i (1 : Fin 2) (2 : Fin 4) (Nat.lt_succ_self 1) rfl

/-- Summing a rank-4 array over its second and fourth axes: at (a, c), the double sum over those two coordinates. -/
theorem reduceAdd_13 (x : (⟨4, ![A, B, C, D]⟩ : Shape).Idx → EReal) (j : (⟨2, ![A, C]⟩ : Shape).Idx) :
    Ideal.reduceAdd h x j = ∑ k₁ : Fin B, ∑ k₃ : Fin D, x (ix4 (j 0) k₁ (j 1) k₃) := by
  unfold Ideal.reduceAdd
  have e : ∑ k₁ : Fin B, ∑ k₃ : Fin D, x (ix4 (j 0) k₁ (j 1) k₃)
      = ∑ k : Fin B × Fin D, x (ix4 (j 0) k.1 (j 1) k.2) :=
    (Fintype.sum_prod_type (fun k : Fin B × Fin D => x (ix4 (j 0) k.1 (j 1) k.2))).symm
  rw [e]
  have hmem : ∀ i : (⟨4, ![A, B, C, D]⟩ : Shape).Idx, h.drop i = j → ((j 0 : Fin A) : ℕ) = (i 0).val ∧ ((j 1 : Fin C) : ℕ) = (i 2).val :=
    fun i hi => ⟨by rw [← hi]; exact drop13_0 h i, by rw [← hi]; exact drop13_1 h i⟩
  refine Finset.sum_nbij' (fun i => ((i 1 : Fin B), (i 3 : Fin D))) (fun k => ix4 (j 0) k.1 (j 1) k.2) ?_ ?_ ?_ ?_ ?_
  · intro i _; exact mem_univ _
  · intro k _
    simp only [mem_filter, mem_univ, true_and]
    funext b; apply Fin.ext
    match b with
    | ⟨0, _⟩ => exact drop13_0 h _
    | ⟨1, _⟩ => exact drop13_1 h _
  · intro i hi
    simp only [mem_filter, mem_univ, true_and] at hi
    obtain ⟨h0, h1⟩ := hmem i hi
    funext a; apply Fin.ext
    match a with
    | ⟨0, _⟩ => exact h0
    | ⟨1, _⟩ => rfl
    | ⟨2, _⟩ => exact h1
    | ⟨3, _⟩ => rfl
  · intro k _; rfl
  · intro i hi
    simp only [mem_filter, mem_univ, true_and] at hi
    obtain ⟨h0, h1⟩ := hmem i hi
    refine congrArg x (funext fun a => Fin.ext ?_)
    match a with
    | ⟨0, _⟩ => exact h0.symm
    | ⟨1, _⟩ => rfl
    | ⟨2, _⟩ => exact h1.symm
    | ⟨3, _⟩ => rfl

/-- The vector unit's sum over those two axes, read at the ideal values, is that double sum. -/
theorem multiReduction_13 {φ : FTy} (src : FVec Ideal ⟨4, ![A, B, C, D]⟩ φ) (acc : BitVec φ.bits)
    (hφ : FKind.Formats φ) (hacc : acc = FKind.add.neutral φ hφ) (j : (⟨2, ![A, C]⟩ : Shape).Idx) :
    multiReduction .add [1, 3] ⟨2, ![A, C]⟩ src acc h hφ hacc j = ∑ k₁ : Fin B, ∑ k₃ : Fin D, src (ix4 (j 0) k₁ (j 1) k₃) :=
  reduceAdd_13 h src j

end Rank4

section Rank6

variable {A B C D E G : ℕ} (h : (⟨6, ![A, B, C, D, E, G]⟩ : Shape).ReducesTo [1, 3, 5] ⟨3, ![A, C, E]⟩)

/-- Dropping the second, fourth and sixth axes keeps the first coordinate … -/
theorem drop135_0 (i : (⟨6, ![A, B, C, D, E, G]⟩ : Shape).Idx) : ((h.drop i 0 : Fin A) : ℕ) = (i 0).val :=
  h.drop_apply_val_of_eq i (0 : Fin 3) (0 : Fin 6) (Nat.zero_lt_succ 2) rfl

/-- … the third … -/
theorem drop135_1 (i : (⟨6, ![A, B, C, D, E, G]⟩ : Shape).Idx) : ((h.drop i 1 : Fin C) : ℕ) = (i 2).val :=
  h.drop_apply_val_of_eq i (1 : Fin 3) (2 : Fin 6) (Nat.succ_lt_succ (Nat.zero_lt_succ 1)) rfl

/-- … and the fifth. -/
theorem drop135_2 (i : (⟨6, ![A, B, C, D, E, G]⟩ : Shape).Idx) : ((h.drop i 2 : Fin E) : ℕ) = (i 4).val :=
  h.drop_apply_val_of_eq i (2 : Fin 3) (4 : Fin 6) (Nat.lt_succ_self 2) rfl

/-- The host's sum of a rank-6 array over its second, fourth and sixth axes: at (a, c, e), the initial value plus the
    triple sum over those three coordinates. -/
theorem hostReduceAdd_135 (x : (⟨6, ![A, B, C, D, E, G]⟩ : Shape).Idx → EReal) (init : EReal)
    (j : (⟨3, ![A, C, E]⟩ : Shape).Idx) :
    Ideal.hostReduceAdd h x init j
      = init + ∑ k₁ : Fin B, ∑ k₃ : Fin D, ∑ k₅ : Fin G, x (ix6 (j 0) k₁ (j 1) k₃ (j 2) k₅) := by
  unfold Ideal.hostReduceAdd
  congr 1
  have e : ∑ k₁ : Fin B, ∑ k₃ : Fin D, ∑ k₅ : Fin G, x (ix6 (j 0) k₁ (j 1) k₃ (j 2) k₅)
      = ∑ k : Fin B × Fin D × Fin G, x (ix6 (j 0) k.1 (j 1) k.2.1 (j 2) k.2.2) := by
    simp only [Fintype.sum_prod_type]
  rw [e]
  have hmem : ∀ i : (⟨6, ![A, B, C, D, E, G]⟩ : Shape).Idx, h.drop i = j →
      ((j 0 : Fin A) : ℕ) = (i 0).val ∧ ((j 1 : Fin C) : ℕ) = (i 2).val ∧ ((j 2 : Fin E) : ℕ) = (i 4).val :=
    fun i hi => ⟨by rw [← hi]; exact drop135_0 h i, by rw [← hi]; exact drop135_1 h i, by rw [← hi]; exact drop135_2 h i⟩
  refine Finset.sum_nbij' (fun i => ((i 1 : Fin B), (i 3 : Fin D), (i 5 : Fin G)))
    (fun k => ix6 (j 0) k.1 (j 1) k.2.1 (j 2) k.2.2) ?_ ?_ ?_ ?_ ?_
  · intro i _; exact mem_univ _
  · intro k _
    simp only [mem_filter, mem_univ, true_and]
    funext b; apply Fin.ext
    match b with
    | ⟨0, _⟩ => exact drop135_0 h _
    | ⟨1, _⟩ => exact drop135_1 h _
    | ⟨2, _⟩ => exact drop135_2 h _
  · intro i hi
    simp only [mem_filter, mem_univ, true_and] at hi
    obtain ⟨h0, h1, h2⟩ := hmem i hi
    funext a; apply Fin.ext
    match a with
    | ⟨0, _⟩ => exact h0
    | ⟨1, _⟩ => rfl
    | ⟨2, _⟩ => exact h1
    | ⟨3, _⟩ => rfl
    | ⟨4, _⟩ => exact h2
    | ⟨5, _⟩ => rfl
  · intro k _; rfl
  · intro i hi
    simp only [mem_filter, mem_univ, true_and] at hi
    obtain ⟨h0, h1, h2⟩ := hmem i hi
    refine congrArg x (funext fun a => Fin.ext ?_)
    match a with
    | ⟨0, _⟩ => exact h0.symm
    | ⟨1, _⟩ => rfl
    | ⟨2, _⟩ => exact h1.symm
    | ⟨3, _⟩ => rfl
    | ⟨4, _⟩ => exact h2.symm
    | ⟨5, _⟩ => rfl

end Rank6

end AxisSums

end
-- ==== Proof.PoolSums.lean ====
/-
  The mathematics of pooling one image over a pyramid of square bins, with no program in sight.

  An input of shape [B, 64, 256, 256] is read through its extension by zero to all quadruples of naturals (`ext`), so
  that every sum below runs over plain ranges and no index carries a bound. The sum of bin (p, q) of side S of image b,
  over all channels, is `pool x b S p q`; `pyramid x b j` is entry j of image b's flattened pyramid of bin averages.
  Adding up a g-by-g patch of fine bins of side 32, each summed over channels, is the bin of side g * 32 summed over
  channels (`sum_fine_eq_pool`): sums laid end to end on both spatial axes (Proof/LibAxisSums.lean), the channel sum
  moved outermost — only commutativity and associativity of addition, so it holds on the extended reals with no
  finiteness assumption.
-/
import proofs.«114564_j1958505087113_1_alg».proof.Proof.LibAxisSums
import Idealize.ShloMosaic.Lib.IdealHost

noncomputable section

namespace Cert.Pool

open Idealize.ShloMosaic Idealize.ShloMosaic.ValueIdx AxisSums
open Finset

/-! ## The input read at naturals, and the sum of a bin -/

/-- The input at (b, c, h, w), zero outside its extents. -/
def ext {B : ℕ} (x : (⟨4, ![B, 64, 256, 256]⟩ : Shape).Idx → EReal) (b c h w : ℕ) : EReal :=
  if hb : b < B ∧ c < 64 ∧ h < 256 ∧ w < 256 then x (ix4 ⟨b, hb.1⟩ ⟨c, hb.2.1⟩ ⟨h, hb.2.2.1⟩ ⟨w, hb.2.2.2⟩) else 0

theorem ext_apply {B : ℕ} (x : (⟨4, ![B, 64, 256, 256]⟩ : Shape).Idx → EReal) (i : (⟨4, ![B, 64, 256, 256]⟩ : Shape).Idx) :
    x i = ext x (i 0).val (i 1).val (i 2).val (i 3).val := by
  unfold ext
  rw [dif_pos ⟨(i 0).isLt, (i 1).isLt, (i 2).isLt, (i 3).isLt⟩]
  exact congrArg x (eq_ix4 i)

/-- The sum of image b over all 64 channels and the S-by-S bin (p, q). -/
def pool {B : ℕ} (x : (⟨4, ![B, 64, 256, 256]⟩ : Shape).Idx → EReal) (b S p q : ℕ) : EReal :=
  ∑ c ∈ range 64, ∑ h ∈ range S, ∑ w ∈ range S, ext x b c (p * S + h) (q * S + w)

/-- The sum of the 32-by-32 fine bin (P, Q) of image b over all channels, the channels innermost. -/
def fine {B : ℕ} (x : (⟨4, ![B, 64, 256, 256]⟩ : Shape).Idx → EReal) (b P Q : ℕ) : EReal :=
  ∑ r ∈ range 32, ∑ s ∈ range 32, ∑ c ∈ range 64, ext x b c (P * 32 + r) (Q * 32 + s)

/-- Adding up the g-by-g patch (p, q) of fine bins gives the bin (p, q) of side g * 32. -/
theorem sum_fine_eq_pool {B : ℕ} (x : (⟨4, ![B, 64, 256, 256]⟩ : Shape).Idx → EReal) (b g p q : ℕ) :
    ∑ a ∈ range g, ∑ d ∈ range g, fine x b (p * g + a) (q * g + d) = pool x b (g * 32) p q := by
  unfold fine pool
  have h := sum_range_tiles (fun h w => ∑ c ∈ range 64, ext x b c h w) (p * g) (q * g) g 32
  rw [h]
  symm
  rw [sum_comm]
  refine sum_congr rfl fun h _ => ?_
  rw [sum_comm]
  refine sum_congr rfl fun w _ => ?_
  refine sum_congr rfl fun c _ => ?_
  rw [Nat.mul_assoc, Nat.mul_assoc]

/-- The average of a bin as both programs spell it: the bin's sum divided by the count's float word. -/
def avg {B : ℕ} (x : (⟨4, ![B, 64, 256, 256]⟩ : Shape).Idx → EReal) (b S p q : ℕ) (count : BitVec 32) : EReal :=
  Ideal.div (pool x b S p q) (Ideal.ofBits .f32 count)

/-- The average depends only on the image, the bin and the count. -/
theorem avg_congr {B : ℕ} (x : (⟨4, ![B, 64, 256, 256]⟩ : Shape).Idx → EReal) (S : ℕ) (count : BitVec 32)
    {b b' p p' q q' : ℕ} (hb : b = b') (hp : p = p') (hq : q = q') : avg x b S p q count = avg x b' S p' q' count := by
  subst hb hp hq; rfl

/-- The pyramid of image b, flattened: entry 0 the whole image's average, entries 1–4 the 2-by-2 level row by row,
    entries 5–20 the 4-by-4 level, entries 21–84 the 8-by-8 level. The counts are 2^22, 2^20, 2^18 and 2^16. -/
def pyramid {B : ℕ} (x : (⟨4, ![B, 64, 256, 256]⟩ : Shape).Idx → EReal) (b j : ℕ) : EReal :=
  if j < 1 then avg x b 256 0 0 0x4A800000#32
  else if j < 5 then avg x b 128 ((j - 1) / 2) ((j - 1) % 2) 0x49800000#32
  else if j < 21 then avg x b 64 ((j - 5) / 4) ((j - 5) % 4) 0x48800000#32
  else avg x b 32 ((j - 21) / 8) ((j - 21) % 8) 0x47800000#32

/-- Image 0 of a one-image array that is image b of x has image b's pyramid. -/
theorem pyramid_congr {B B' : ℕ} (x : (⟨4, ![B, 64, 256, 256]⟩ : Shape).Idx → EReal)
    (y : (⟨4, ![B', 64, 256, 256]⟩ : Shape).Idx → EReal) (b b' : ℕ)
    (h : ∀ c h w, ext y b' c h w = ext x b c h w) (j : ℕ) : pyramid y b' j = pyramid x b j := by
  unfold pyramid avg pool
  simp only [h]

end Cert.Pool

end
-- ==== Proof.KernelPayload.lean ====
/-
  What the kernel body stores, entry by entry: from one image (a block [1, 64, 256, 256]) it forms the channel sums
  [256, 256], their sums over 32-by-32 tiles (the 8-by-8 grid of fine bins), and for each level n of the pyramid the
  sums of g-by-g patches of fine bins (g = 8 / n), divided by the level's count, flattened row by row and laid end to
  end. Read at entry j this is entry j of the image's pyramid (Proof/PoolSums.lean): a patch of fine bins summed is the
  level's bin summed, by regrouping the sums.
-/
import proofs.«114564_j1958505087113_1_alg».proof.Proof.Gen.KernelIdeal.Skeleton
import proofs.«114564_j1958505087113_1_alg».proof.Proof.PoolSums
import Idealize.ShloMosaic.Lib.Pipeline.Value

noncomputable section

namespace Cert.KernelIdeal.Payload

open Cert.KernelIdeal Cert.KernelIdeal.Gen Idealize.ShloMosaic Idealize.ShloMosaic.ValueIdx Cert.Pool AxisSums
open Finset

/-- The channel sums of the image at (h, w). -/
theorem chanSum_apply (v0 : FVec Ideal S1x64x256x256 .f32) (hsc : S1x64x256x256.ShapeCasts S64x256x256)
    (hred : S64x256x256.Reduces [0] S256x256) (hφ : FKind.Formats .f32)
    (hacc : (0x00000000#32 : BitVec 32) = FKind.add.neutral .f32 hφ) (J : S256x256.Idx) :
    multiReduction .add [0] S256x256 (shapeCast S64x256x256 v0 hsc) 0x00000000#32 hred hφ hacc J
      = ∑ c ∈ range 64, ext v0 0 c (J 0).val (J 1).val := by
  rw [Ideal.multiReduction_add_single, ← Fin.sum_univ_eq_sum_range (fun c => ext v0 0 c (J 0).val (J 1).val) 64]
  refine Fintype.sum_congr _ _ fun k => ?_
  have hk : k.val < 64 := k.isLt
  have hJ0 : (J 0).val < 256 := (J 0).isLt
  have hJ1 : (J 1).val < 256 := (J 1).isLt
  rw [shapeCast_apply v0 hsc (hred.lift J k) (ix4 (0 : Fin 1) ⟨k.val, hk⟩ ⟨(J 0).val, hJ0⟩ ⟨(J 1).val, hJ1⟩)
    (by rw [Shape.rowMajor_val_four, Shape.rowMajor_val_three]
        show ((0 * 64 + k.val) * 256 + (J 0).val) * 256 + (J 1).val = (k.val * 256 + (J 0).val) * 256 + (J 1).val
        omega),
    ext_apply v0 (ix4 (0 : Fin 1) ⟨k.val, hk⟩ ⟨(J 0).val, hJ0⟩ ⟨(J 1).val, hJ1⟩)]
  rfl

/-- The sums over 32-by-32 tiles of an array [256, 256] whose entries are F (h, w): at (P, Q) the double sum over the tile. -/
theorem tileSum_apply (v2 : FVec Ideal S256x256 .f32) (hsc : S256x256.ShapeCasts S8x32x8x32)
    (hred : S8x32x8x32.Reduces [1, 3] S8x8) (hφ : FKind.Formats .f32)
    (hacc : (0x00000000#32 : BitVec 32) = FKind.add.neutral .f32 hφ) (J : S8x8.Idx)
    (F : ℕ → ℕ → EReal) (hv2 : ∀ I : S256x256.Idx, v2 I = F (I 0).val (I 1).val) :
    multiReduction .add [1, 3] S8x8 (shapeCast S8x32x8x32 v2 hsc) 0x00000000#32 hred hφ hacc J
      = ∑ r ∈ range 32, ∑ s ∈ range 32, F ((J 0).val * 32 + r) ((J 1).val * 32 + s) := by
  refine (multiReduction_13 hred _ _ hφ hacc J).trans ?_
  rw [← fin_sum2 (fun r s => F ((J 0).val * 32 + r) ((J 1).val * 32 + s)) 32 32]
  refine Fintype.sum_congr _ _ fun r => Fintype.sum_congr _ _ fun s => ?_
  have hJ0 : (J 0).val < 8 := (J 0).isLt
  have hJ1 : (J 1).val < 8 := (J 1).isLt
  have hr : r.val < 32 := r.isLt
  have hs : s.val < 32 := s.isLt
  rw [shapeCast_apply v2 hsc (ix4 (J 0) r (J 1) s) (ix2 ⟨(J 0).val * 32 + r.val, by omega⟩ ⟨(J 1).val * 32 + s.val, by omega⟩)
    (by rw [Shape.rowMajor_val_two, Shape.rowMajor_val_four]
        show ((J 0).val * 32 + r.val) * 256 + ((J 1).val * 32 + s.val) = ((((J 0).val * 32 + r.val) * 8 + (J 1).val) * 32 + s.val)
        omega), hv2]

/-- The sums over g-by-g patches of an 8-by-8 array whose entries are F (P, Q), n * g = 8: at (p, q) the double sum
    over the patch. -/
theorem patchSum_apply {n g : ℕ} (hng : n * g = 8) (v4 : FVec Ideal S8x8 .f32) (hsc : S8x8.ShapeCasts ⟨4, ![n, g, n, g]⟩)
    (hred : (⟨4, ![n, g, n, g]⟩ : Shape).Reduces [1, 3] ⟨2, ![n, n]⟩) (hφ : FKind.Formats .f32)
    (hacc : (0x00000000#32 : BitVec 32) = FKind.add.neutral .f32 hφ) (J : (⟨2, ![n, n]⟩ : Shape).Idx)
    (F : ℕ → ℕ → EReal) (hv4 : ∀ I : S8x8.Idx, v4 I = F (I 0).val (I 1).val) :
    multiReduction .add [1, 3] ⟨2, ![n, n]⟩ (shapeCast ⟨4, ![n, g, n, g]⟩ v4 hsc) 0x00000000#32 hred hφ hacc J
      = ∑ a ∈ range g, ∑ d ∈ range g, F ((J 0).val * g + a) ((J 1).val * g + d) := by
  refine (multiReduction_13 hred _ _ hφ hacc J).trans ?_
  rw [← fin_sum2 (fun a d => F ((J 0).val * g + a) ((J 1).val * g + d)) g g]
  refine Fintype.sum_congr _ _ fun a => Fintype.sum_congr _ _ fun d => ?_
  have hP : (J 0).val * g + a.val < 8 := hng ▸ mul_add_lt (J 0).isLt a.isLt
  have hQ : (J 1).val * g + d.val < 8 := hng ▸ mul_add_lt (J 1).isLt d.isLt
  rw [shapeCast_apply v4 hsc (ix4 (J 0) a (J 1) d) (ix2 ⟨(J 0).val * g + a.val, hP⟩ ⟨(J 1).val * g + d.val, hQ⟩)
    (by rw [Shape.rowMajor_val_two, Shape.rowMajor_val_four]
        show ((J 0).val * g + a.val) * 8 + ((J 1).val * g + d.val) = ((((J 0).val * g + a.val) * n + (J 1).val) * g + d.val)
        rw [← hng]; ring), hv4]

/-- One level of the pyramid before the division: the patch sums of the fine bins of the image's channel sums are the
    level's bins summed. -/
theorem level_apply {n g : ℕ} (hng : n * g = 8) (v0 : FVec Ideal S1x64x256x256 .f32)
    (hsc1 : S1x64x256x256.ShapeCasts S64x256x256) (hred1 : S64x256x256.Reduces [0] S256x256)
    (hsc2 : S256x256.ShapeCasts S8x32x8x32) (hred2 : S8x32x8x32.Reduces [1, 3] S8x8)
    (hsc : S8x8.ShapeCasts ⟨4, ![n, g, n, g]⟩) (hred : (⟨4, ![n, g, n, g]⟩ : Shape).Reduces [1, 3] ⟨2, ![n, n]⟩)
    (hφ : FKind.Formats .f32) (hacc : (0x00000000#32 : BitVec 32) = FKind.add.neutral .f32 hφ)
    (J : (⟨2, ![n, n]⟩ : Shape).Idx) :
    multiReduction .add [1, 3] ⟨2, ![n, n]⟩ (shapeCast ⟨4, ![n, g, n, g]⟩
        (multiReduction .add [1, 3] S8x8 (shapeCast S8x32x8x32
          (multiReduction .add [0] S256x256 (shapeCast S64x256x256 v0 hsc1) 0x00000000#32 hred1 hφ hacc) hsc2)
          0x00000000#32 hred2 hφ hacc) hsc) 0x00000000#32 hred hφ hacc J
      = pool v0 0 (g * 32) (J 0).val (J 1).val := by
  rw [patchSum_apply hng _ hsc hred hφ hacc J (fine v0 0)
    (fun I => tileSum_apply _ hsc2 hred2 hφ hacc I (fun h w => ∑ c ∈ range 64, ext v0 0 c h w)
      (fun I' => chanSum_apply v0 hsc1 hred1 hφ hacc I'))]
  exact sum_fine_eq_pool v0 0 g (J 0).val (J 1).val

/-- One level, divided by its count and flattened row by row: entry e is the average of bin (e / n, e % n). -/
theorem levelFlat_apply {n g N : ℕ} (hng : n * g = 8) (hN : n * n = N) (v0 : FVec Ideal S1x64x256x256 .f32)
    (hsc1 : S1x64x256x256.ShapeCasts S64x256x256) (hred1 : S64x256x256.Reduces [0] S256x256)
    (hsc2 : S256x256.ShapeCasts S8x32x8x32) (hred2 : S8x32x8x32.Reduces [1, 3] S8x8)
    (hsc : S8x8.ShapeCasts ⟨4, ![n, g, n, g]⟩) (hred : (⟨4, ![n, g, n, g]⟩ : Shape).Reduces [1, 3] ⟨2, ![n, n]⟩)
    (hφ : FKind.Formats .f32) (hacc : (0x00000000#32 : BitVec 32) = FKind.add.neutral .f32 hφ)
    (hflat : (⟨2, ![n, n]⟩ : Shape).ShapeCasts ⟨1, ![N]⟩) (w : BitVec 32) (e : Fin N) :
    shapeCast ⟨1, ![N]⟩ (divf (multiReduction .add [1, 3] ⟨2, ![n, n]⟩ (shapeCast ⟨4, ![n, g, n, g]⟩
        (multiReduction .add [1, 3] S8x8 (shapeCast S8x32x8x32
          (multiReduction .add [0] S256x256 (shapeCast S64x256x256 v0 hsc1) 0x00000000#32 hred1 hφ hacc) hsc2)
          0x00000000#32 hred2 hφ hacc) hsc) 0x00000000#32 hred hφ hacc)
        (broadcast ⟨2, ![n, n]⟩ (Scalar.ofBits (F := Ideal) .f32 w))) hflat (ix1 e)
      = avg v0 0 (g * 32) (e.val / n) (e.val % n) w := by
  have hn : 0 < n := Nat.pos_of_ne_zero (by rintro rfl; simp at hng)
  have he : e.val < n * n := hN ▸ e.isLt
  have hp : e.val / n < n := Nat.div_lt_of_lt_mul he
  have hq : e.val % n < n := Nat.mod_lt _ hn
  rw [shapeCast_apply _ hflat (ix1 e) (ix2 ⟨e.val / n, hp⟩ ⟨e.val % n, hq⟩)
    (by rw [Shape.rowMajor_val_two, Shape.rowMajor_val_one]
        show e.val / n * n + e.val % n = e.val
        exact Nat.div_add_mod' _ _),
    divf_apply, level_apply hng v0 hsc1 hred1 hsc2 hred2 hsc hred hφ hacc]
  rfl

/-- THE PAYLOAD AT ENTRY j: entry j of the image's pyramid. -/
theorem pay_apply (v0 : Vec Ideal S1x64x256x256 .f32) (j : Fin 85) :
    k0_pay1 (F := Ideal) v0 (ix3 (0 : Fin 1) (0 : Fin 1) j) = pyramid v0 0 j.val := by
  unfold k0_pay1
  dsimp only
  rw [shapeCast_apply _ _ (ix3 (0 : Fin 1) (0 : Fin 1) j) (ix1 j)
    (by rw [Shape.rowMajor_val_one, Shape.rowMajor_val_three]
        show j.val = (0 * 1 + 0) * 85 + j.val
        omega)]
  have hj : j.val < 85 := j.isLt
  unfold pyramid
  by_cases h1 : j.val < 1
  · rw [if_pos h1]
    refine (concatenate_apply_piece (0 : Fin 1) _ _ (ix1 j) 0 (by exact (by omega : (0 : ℕ) < 4)) S1 _ rfl rfl 0 rfl
      (ix1 ⟨j.val - 0, by omega⟩) (fun b hb => absurd (Subsingleton.elim _ _) hb)
      (by show 0 + (j.val - 0) = j.val; omega)).trans ?_
    refine (levelFlat_apply (n := 1) (g := 8) (N := 1) rfl rfl v0 _ _ _ _ _ _ _ _ _ 0x4A800000#32 ⟨j.val - 0, by omega⟩).trans ?_
    have e0 : j.val - 0 = 0 := by omega
    show avg v0 0 (8 * 32) ((j.val - 0) / 1) ((j.val - 0) % 1) 0x4A800000#32 = avg v0 0 256 0 0 0x4A800000#32
    rw [e0]
  · rw [if_neg h1]
    by_cases h2 : j.val < 5
    · rw [if_pos h2]
      refine (concatenate_apply_piece (0 : Fin 1) _ _ (ix1 j) 1 (by exact (by omega : (1 : ℕ) < 4)) S4 _ rfl rfl 1 rfl
        (ix1 ⟨j.val - 1, by omega⟩) (fun b hb => absurd (Subsingleton.elim _ _) hb)
        (by show 1 + (j.val - 1) = j.val; omega)).trans ?_
      exact levelFlat_apply (n := 2) (g := 4) (N := 4) rfl rfl v0 _ _ _ _ _ _ _ _ _ 0x49800000#32 ⟨j.val - 1, by omega⟩
    · rw [if_neg h2]
      by_cases h3 : j.val < 21
      · rw [if_pos h3]
        refine (concatenate_apply_piece (0 : Fin 1) _ _ (ix1 j) 2 (by exact (by omega : (2 : ℕ) < 4)) S16 _ rfl rfl 5 rfl
          (ix1 ⟨j.val - 5, by omega⟩) (fun b hb => absurd (Subsingleton.elim _ _) hb)
          (by show 5 + (j.val - 5) = j.val; omega)).trans ?_
        exact levelFlat_apply (n := 4) (g := 2) (N := 16) rfl rfl v0 _ _ _ _ _ _ _ _ _ 0x48800000#32 ⟨j.val - 5, by omega⟩
      · rw [if_neg h3]
        refine (concatenate_apply_piece (0 : Fin 1) _ _ (ix1 j) 3 (by exact (by omega : (3 : ℕ) < 4)) S64 _ rfl rfl 21 rfl
          (ix1 ⟨j.val - 21, by omega⟩) (fun b hb => absurd (Subsingleton.elim _ _) hb)
          (by show 21 + (j.val - 21) = j.val; omega)).trans ?_
        exact levelFlat_apply (n := 8) (g := 1) (N := 64) rfl rfl v0 _ _ _ _ _ _ _ _ _ 0x47800000#32 ⟨j.val - 21, by omega⟩

/-- The same at any index of the stored block [1, 1, 85]: its first two coordinates are 0. -/
theorem pay_apply' (v0 : Vec Ideal S1x64x256x256 .f32) (y : S1x1x85.Idx) :
    k0_pay1 (F := Ideal) v0 y = pyramid v0 0 (y 2).val := by
  have hy : y = ix3 (0 : Fin 1) (0 : Fin 1) (y 2) := by
    funext a
    match a with
    | ⟨0, _⟩ => apply Fin.ext; show (y 0).val = 0; have : (y 0).val < 1 := (y 0).isLt; omega
    | ⟨1, _⟩ => apply Fin.ext; show (y 1).val = 0; have : (y 1).val < 1 := (y 1).isLt; omega
    | ⟨2, _⟩ => rfl
  exact (congrArg (k0_pay1 (F := Ideal) v0) hy).trans (pay_apply v0 (y 2))

end Cert.KernelIdeal.Payload

end
-- ==== Proof.KernelValue.lean ====
/-
  The kernel's result as one function of its input. Grid point t is handed image t (block t of the input along the
  batch axis) and writes back row t of the output [16, 1, 85]; what it writes is the image's pyramid (the payload read
  at an index, Proof/KernelPayload.lean). The sixteen rows tile the output, so after the region the output holds, at
  (b, 0, j), entry j of the pyramid of image b; the host's reshape to [16, 85] keeps row-major positions, so the result
  at (b, j) is that same entry.
-/
import proofs.«114564_j1958505087113_1_alg».proof.Proof.Gen.KernelIdeal.Frame
import proofs.«114564_j1958505087113_1_alg».proof.Proof.KernelPayload
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx Cert.Pool Cert.KernelIdeal.Payload
open Idealize.ShloMosaic.Pipeline (Dat)

variable (m : (ℓ : Loc nD τ sig) → Buf (Elt Ideal) ℓ) (ρ : Dev nD → PrngReg)

/-- The pyramids of the sixteen images, one per row of [16, 1, 85]. -/
def stacked (x : FVec Ideal S16x64x256x256 .f32) : FVec Ideal S16x1x85 .f32 := fun i => pyramid x (i 0).val (i 2).val

/-- The same as [16, 85]. -/
def flat (x : FVec Ideal S16x64x256x256 .f32) : FVec Ideal S16x85 .f32 := fun i => pyramid x (i 0).val (i 1).val

/-- The input block at grid point t, and the input array, at their literal types. -/
abbrev xblk (c : Dev nD) (t : Fin cfg0.N) : Vec Ideal S1x64x256x256 .f32 := iblk m c 0 t
abbrev xarr (c : Dev nD) : Vec Ideal S16x64x256x256 .f32 := V m c main_arg0

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The two index maps over the grid: both windows move along the batch axis with the grid point and stay at 0 on the
    other axes. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 16 := Nat.lt_of_lt_of_eq t.isLt N_0

/-- Block t of the input is image t. -/
theorem xblk_apply (c : Dev nD) (t : Fin cfg0.N) (y : S1x64x256x256.Idx) :
    xblk m c t y = xarr m c (ix4 ⟨t.val, point_lt t⟩ (y 1) (y 2) (y 3)) := by
  obtain ⟨e0, e1, e2, e3, -, -, -⟩ := idx_facts t
  have h : ((cfg0.win 0).blk t).view.emb y = ix4 ⟨t.val, point_lt t⟩ (y 1) (y 2) (y 3) := by
    funext a; apply Fin.ext
    match a with
    | ⟨0, _⟩ => show win0_0.index t (0 : Fin 4) * 1 + 1 * (y 0).val = t.val; have : (y 0).val < 1 := (y 0).isLt; omega
    | ⟨1, _⟩ => show win0_0.index t (1 : Fin 4) * 64 + 1 * (y 1).val = (y 1).val; omega
    | ⟨2, _⟩ => show win0_0.index t (2 : Fin 4) * 256 + 1 * (y 2).val = (y 2).val; omega
    | ⟨3, _⟩ => show win0_0.index t (3 : Fin 4) * 256 + 1 * (y 3).val = (y 3).val; omega
  show V m c main_arg0 (((cfg0.win 0).blk t).view.emb y) = V m c main_arg0 _
  rw [h]
  rfl

/-- So read at naturals, image 0 of the block is image t of the input. -/
theorem xblk_ext (c : Dev nD) (t : Fin cfg0.N) (c' h w : ℕ) :
    ext (xblk m c t) 0 c' h w = ext (xarr m c) t.val c' h w := by
  unfold ext
  by_cases hb : c' < 64 ∧ h < 256 ∧ w < 256
  · rw [dif_pos ⟨Nat.zero_lt_one, hb⟩, dif_pos ⟨point_lt t, hb⟩, xblk_apply]
  · rw [dif_neg (fun h' => hb h'.2), dif_neg (fun h' => hb h'.2)]

/-- WHAT POINT t WRITES BACK is block t of the stacked pyramids. -/
theorem flushed_eq (c : Dev nD) (t : Fin cfg0.N) :
    (dats m 0 c).flushed 1 t = ((cfg0.win 1).blk t).view.read (Elt Ideal) (stacked (xarr m c)) := by
  show (cfg0.win 1).cut (grid0.coords t) ((dats m 0 c).after 1 t) = _
  rw [after0_1]
  unfold out0_1
  rw [View.canon_unit_zero hz3]
  simp only [View.ld_unit_zero (S := S1x64x256x256) hz4]
  obtain ⟨-, -, -, -, f0, f1, f2⟩ := idx_facts t
  funext y
  show k0_pay1 (F := Ideal) (xblk m c t) y = stacked (xarr m c) (((cfg0.win 1).blk t).view.emb y)
  rw [pay_apply']
  have hE0 : ((((cfg0.win 1).blk t).view.emb y) 0).val = t.val := by
    show win0_1.index t (0 : Fin 3) * 1 + 1 * (y 0).val = t.val
    have : (y 0).val < 1 := (y 0).isLt
    omega
  have hE2 : ((((cfg0.win 1).blk t).view.emb y) 2).val = (y 2).val := by
    show win0_1.index t (2 : Fin 3) * 85 + 1 * (y 2).val = (y 2).val
    omega
  show pyramid (xblk m c t) 0 (y 2).val
    = pyramid (xarr m c) ((((cfg0.win 1).blk t).view.emb y) 0).val ((((cfg0.win 1).blk t).view.emb y) 2).val
  rw [hE0, hE2]
  exact pyramid_congr (xarr m c) (xblk m c t) t.val 0 (xblk_ext m c t) (y 2).val

/-- An index of the output is in point t's block iff each coordinate is in the block's range on its axis. -/
theorem mem_blk (t : Fin cfg0.N) (i : S16x1x85.Idx) :
    i ∈ ((cfg0.win 1).blk t).view.set ↔ ∀ a : Fin 3, win0_1.index t a * S1x1x85.size a ≤ (i a).val
      ∧ (i a).val < win0_1.index t a * S1x1x85.size a + S1x1x85.size a := by
  show i ∈ ((View.whole main_v0).slice (win0_1.rect t)).set ↔ _
  rw [View.set_slice_whole, Rect.mem_set_unit]
  exact Iff.rfl

/-- Every index of the output is in the block of the point its batch coordinate names. -/
theorem cover (i : S16x1x85.Idx) :
    ∃ t : Fin cfg0.N, (cfg0.win 1).flush t = true ∧ i ∈ ((cfg0.win 1).blk t).view.set := by
  have hi0 : (i 0).val < 16 := (i 0).isLt
  have hi1 : (i 1).val < 1 := (i 1).isLt
  have hi2 : (i 2).val < 85 := (i 2).isLt
  refine ⟨⟨(i 0).val, Nat.lt_of_lt_of_eq hi0 N_0.symm⟩, flush0_1 _, ?_⟩
  obtain ⟨-, -, -, -, f0, f1, f2⟩ := idx_facts ⟨(i 0).val, Nat.lt_of_lt_of_eq hi0 N_0.symm⟩
  rw [mem_blk]
  intro a
  match a with
  | ⟨0, _⟩ =>
    show win0_1.index _ (0 : Fin 3) * 1 ≤ (i 0).val ∧ (i 0).val < win0_1.index _ (0 : Fin 3) * 1 + 1
    rw [f0]; show (i 0).val * 1 ≤ (i 0).val ∧ (i 0).val < (i 0).val * 1 + 1; omega
  | ⟨1, _⟩ =>
    show win0_1.index _ (1 : Fin 3) * 1 ≤ (i 1).val ∧ (i 1).val < win0_1.index _ (1 : Fin 3) * 1 + 1
    rw [f1]; omega
  | ⟨2, _⟩ =>
    show win0_1.index _ (2 : Fin 3) * 85 ≤ (i 2).val ∧ (i 2).val < win0_1.index _ (2 : Fin 3) * 85 + 85
    rw [f2]; omega

/-- THE OUTPUT ARRAY after the region: the stacked pyramids of the input as launched. -/
theorem final (c : Dev nD) :
    (dats m 0 c).arrAt 1 cfg0.N = stacked (m ((c : Thread nD τ).loc main_arg0)) := by
  rw [(dats m 0 c).arrAt_eq_of_cover 1 (stacked (xarr m c)) (fun t _ => flushed_eq m c t) cover]
  show stacked (V m c main_arg0) = _
  rw [V_main_arg0]

/-- The host's reshape of the output to [16, 85], after the region: entry (b, j) is entry j of image b's pyramid. -/
theorem tail_v1 (c : Dev nD) :
    Pipeline.afterTail₀ cfgs (dats m) 0 (V0 m) [hostOps1] c main_v1 = flat (m ((c : Thread nD τ).loc main_arg0)) := by
  unfold Pipeline.afterTail₀
  show StableHlo.after hostOps1 _ (Proc.devRef .tc main_v1) = _
  after_results
  funext (i : S16x85.Idx)
  show shapeCast S16x85 (Pipeline.withArrays spec0 c (V0 m c) (fun w => (dats m 0 c).arrAt w cfg0.N)
    (Proc.devRef .tc main_v0)) shapeCasts_S16x1x85_S16x85 i = _
  have hA : Pipeline.withArrays spec0 c (V0 m c) (fun w => (dats m 0 c).arrAt w cfg0.N) (Proc.devRef .tc main_v0)
      = stacked (m ((c : Thread nD τ).loc main_arg0)) :=
    (Pipeline.withArrays_arr spec0 launch0.win.arr_inj c _ _ 1).trans (final m c)
  rw [hA, shapeCast_apply (stacked (m ((c : Thread nD τ).loc main_arg0))) shapeCasts_S16x1x85_S16x85 i (ix3 (i 0) (0 : Fin 1) (i 1))
    (by rw [Shape.rowMajor_val_three, Shape.rowMajor_val_two]
        show ((i 0).val * 1 + 0) * 85 + (i 1).val = (i 0).val * 85 + (i 1).val
        omega)]
  rfl

/-- THE KERNEL'S RUN, READ: every weakly fair execution ends with the result at the flattened pyramids of the input
    as launched, the input unchanged. -/
theorem run : θ_run defs (onTc (τ := τ) (main (F := Ideal))) ⟨m, fun _ => 0, ρ⟩ fun r => ∀ c : Dev nD,
      r.2.mem ((c : Thread nD τ).loc main_v1) = flat (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 (by decide) (by decide))).trans (tail_v1 m c),
        ((h c).1 0).trans (((dats m 0 c).arrAt_in 0 rfl _).trans ((A_eq m c 0).trans (V_main_arg0 m c)))⟩)
    (run_main m ρ)

end Cert.KernelIdeal.KernelValue

end
-- ==== Proof.RefValue.lean ====
/-
  The reference's result, entry by entry: for each level n it views the input as [16, 64, n, 256/n, n, 256/n], sums
  over the channels and the two within-bin axes, divides by the count and flattens the n-by-n bins row by row; the four
  levels are laid side by side. At (b, j) this is entry j of the pyramid of image b (Proof/PoolSums.lean): the triple
  sum is the bin's sum, the starting value of the sum is zero.
-/
import proofs.«114564_j1958505087113_1_alg».proof.Proof.Gen.ReferenceIdeal.Read
import proofs.«114564_j1958505087113_1_alg».proof.Proof.PoolSums
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Cert.Pool AxisSums
open Finset

/-- One level's sums: the input viewed as [16, 64, n, S, n, S] (n * S = 256) and summed over channels and the two
    within-bin axes is, at (b, p, q), the starting value plus the sum of bin (p, q) of side S of image b. -/
theorem refLevel_apply {n S : ℕ} (hnS : n * S = 256) (x : FVec Ideal S16x64x256x256 .f32)
    (hsc : S16x64x256x256.ShapeCasts ⟨6, ![16, 64, n, S, n, S]⟩)
    (hred : (⟨6, ![16, 64, n, S, n, S]⟩ : Shape).ReducesTo [1, 3, 5] ⟨3, ![16, n, n]⟩) (init : EReal)
    (J : (⟨3, ![16, n, n]⟩ : Shape).Idx) :
    Ideal.hostReduceAdd hred (shapeCast ⟨6, ![16, 64, n, S, n, S]⟩ x hsc) init J
      = init + Cert.Pool.pool x (J 0).val S (J 1).val (J 2).val := by
  rw [hostReduceAdd_135]
  congr 1
  unfold Cert.Pool.pool
  rw [← fin_sum3 (fun c h w => ext x (J 0).val c ((J 1).val * S + h) ((J 2).val * S + w)) 64 S S]
  refine Fintype.sum_congr _ _ fun c => Fintype.sum_congr _ _ fun h => Fintype.sum_congr _ _ fun w => ?_
  have hH : (J 1).val * S + h.val < 256 := hnS ▸ mul_add_lt (J 1).isLt h.isLt
  have hW : (J 2).val * S + w.val < 256 := hnS ▸ mul_add_lt (J 2).isLt w.isLt
  have hb : (J 0).val < 16 := (J 0).isLt
  have hc : c.val < 64 := c.isLt
  rw [shapeCast_apply x hsc (ix6 (J 0) c (J 1) h (J 2) w) (ix4 ⟨(J 0).val, hb⟩ ⟨c.val, hc⟩ ⟨_, hH⟩ ⟨_, hW⟩)
    (by rw [Shape.rowMajor_val_four, Shape.rowMajor_val_six]
        show (((J 0).val * 64 + c.val) * 256 + ((J 1).val * S + h.val)) * 256 + ((J 2).val * S + w.val)
          = ((((((J 0).val * 64 + c.val) * n + (J 1).val) * S + h.val) * n + (J 2).val) * S + w.val)
        rw [← hnS]; ring),
    ext_apply x (ix4 ⟨(J 0).val, hb⟩ ⟨c.val, hc⟩ ⟨_, hH⟩ ⟨_, hW⟩)]

/-- The whole image's average. -/
theorem level1_apply (x : FVec Ideal S16x64x256x256 .f32) (b : Fin 16) (e : Fin 1) :
    val_main_v4 (F := Ideal) x (ix2 b e) = avg x b.val 256 (e.val / 1) (e.val % 1) 0x4A800000#32 := by
  have hb : b.val < 16 := b.isLt
  have he : e.val < 1 := e.isLt
  rw [val_main_v4_apply, val_main_v3_apply, val_main_v2_apply, val_main_cst_0_apply]
  unfold val_main_v1 val_main_v0
  rw [hostReduceAdd_apply, refLevel_apply (n := 1) (S := 256) rfl, Ideal.hostDivf_def,
    show val_main_cst (F := Ideal) _ = 0 from Ideal.ofBits_zero_f32, zero_add]
  have h0 : (idx_main_v4 (ix2 b e) 0).val = b.val := by show (b.val * 1 + e.val) / 1 = b.val; omega
  have h1 : (idx_main_v4 (ix2 b e) 1).val = e.val / 1 := by show 0 = e.val / 1; omega
  have h2 : (idx_main_v4 (ix2 b e) 2).val = e.val % 1 := by show 0 = e.val % 1; omega
  exact avg_congr x 256 _ h0 h1 h2

/-- The 2-by-2 level. -/
theorem level2_apply (x : FVec Ideal S16x64x256x256 .f32) (b : Fin 16) (e : Fin 4) :
    val_main_v9 (F := Ideal) x (ix2 b e) = avg x b.val 128 (e.val / 2) (e.val % 2) 0x49800000#32 := by
  have hb : b.val < 16 := b.isLt
  have he : e.val < 4 := e.isLt
  rw [val_main_v9_apply, val_main_v8_apply, val_main_v7_apply, val_main_cst_2_apply]
  unfold val_main_v6 val_main_v5
  rw [hostReduceAdd_apply, refLevel_apply (n := 2) (S := 128) rfl, Ideal.hostDivf_def,
    show val_main_cst_1 (F := Ideal) _ = 0 from Ideal.ofBits_zero_f32, zero_add]
  have h0 : (idx_main_v9 (ix2 b e) 0).val = b.val := by show (b.val * 4 + e.val) / 4 = b.val; omega
  have h1 : (idx_main_v9 (ix2 b e) 1).val = e.val / 2 := by show (b.val * 4 + e.val) / 2 % 2 = e.val / 2; omega
  have h2 : (idx_main_v9 (ix2 b e) 2).val = e.val % 2 := by show (b.val * 4 + e.val) % 2 = e.val % 2; omega
  exact avg_congr x 128 _ h0 h1 h2

/-- The 4-by-4 level. -/
theorem level4_apply (x : FVec Ideal S16x64x256x256 .f32) (b : Fin 16) (e : Fin 16) :
    val_main_v14 (F := Ideal) x (ix2 b e) = avg x b.val 64 (e.val / 4) (e.val % 4) 0x48800000#32 := by
  have hb : b.val < 16 := b.isLt
  have he : e.val < 16 := e.isLt
  rw [val_main_v14_apply, val_main_v13_apply, val_main_v12_apply, val_main_cst_4_apply]
  unfold val_main_v11 val_main_v10
  rw [hostReduceAdd_apply, refLevel_apply (n := 4) (S := 64) rfl, Ideal.hostDivf_def,
    show val_main_cst_3 (F := Ideal) _ = 0 from Ideal.ofBits_zero_f32, zero_add]
  have h0 : (idx_main_v14 (ix2 b e) 0).val = b.val := by show (b.val * 16 + e.val) / 16 = b.val; omega
  have h1 : (idx_main_v14 (ix2 b e) 1).val = e.val / 4 := by show (b.val * 16 + e.val) / 4 % 4 = e.val / 4; omega
  have h2 : (idx_main_v14 (ix2 b e) 2).val = e.val % 4 := by show (b.val * 16 + e.val) % 4 = e.val % 4; omega
  exact avg_congr x 64 _ h0 h1 h2

/-- The 8-by-8 level. -/
theorem level8_apply (x : FVec Ideal S16x64x256x256 .f32) (b : Fin 16) (e : Fin 64) :
    val_main_v19 (F := Ideal) x (ix2 b e) = avg x b.val 32 (e.val / 8) (e.val % 8) 0x47800000#32 := by
  have hb : b.val < 16 := b.isLt
  have he : e.val < 64 := e.isLt
  rw [val_main_v19_apply, val_main_v18_apply, val_main_v17_apply, val_main_cst_6_apply]
  unfold val_main_v16 val_main_v15
  rw [hostReduceAdd_apply, refLevel_apply (n := 8) (S := 32) rfl, Ideal.hostDivf_def,
    show val_main_cst_5 (F := Ideal) _ = 0 from Ideal.ofBits_zero_f32, zero_add]
  have h0 : (idx_main_v19 (ix2 b e) 0).val = b.val := by show (b.val * 64 + e.val) / 64 = b.val; omega
  have h1 : (idx_main_v19 (ix2 b e) 1).val = e.val / 8 := by show (b.val * 64 + e.val) / 8 % 8 = e.val / 8; omega
  have h2 : (idx_main_v19 (ix2 b e) 2).val = e.val % 8 := by show (b.val * 64 + e.val) % 8 = e.val % 8; omega
  exact avg_congr x 32 _ h0 h1 h2

/-- THE REFERENCE'S RESULT AT (b, j): entry j of the pyramid of image b. -/
theorem result_apply (x : FVec Ideal S16x64x256x256 .f32) (b : Fin 16) (j : Fin 85) :
    val_main_v20 (F := Ideal) x (ix2 b j) = pyramid x b.val j.val := by
  unfold val_main_v20
  have hj : j.val < 85 := j.isLt
  unfold pyramid
  by_cases h1 : j.val < 1
  · rw [if_pos h1]
    refine (concatenate_apply_piece (1 : Fin 2) _ _ (ix2 b j) 0 (by exact (by omega : (0 : ℕ) < 4)) S16x1 _ rfl rfl 0 rfl
      (ix2 b ⟨j.val - 0, by omega⟩)
      (fun b' hb' => by match b' with | ⟨0, _⟩ => rfl | ⟨1, _⟩ => exact absurd rfl hb')
      (by show 0 + (j.val - 0) = j.val; omega)).trans ?_
    refine (level1_apply x b ⟨j.val - 0, by omega⟩).trans ?_
    have e0 : j.val - 0 = 0 := by omega
    show avg x b.val 256 ((j.val - 0) / 1) ((j.val - 0) % 1) 0x4A800000#32 = avg x b.val 256 0 0 0x4A800000#32
    rw [e0]
  · rw [if_neg h1]
    by_cases h2 : j.val < 5
    · rw [if_pos h2]
      refine (concatenate_apply_piece (1 : Fin 2) _ _ (ix2 b j) 1 (by exact (by omega : (1 : ℕ) < 4)) S16x4 _ rfl rfl 1 rfl
        (ix2 b ⟨j.val - 1, by omega⟩)
        (fun b' hb' => by match b' with | ⟨0, _⟩ => rfl | ⟨1, _⟩ => exact absurd rfl hb')
        (by show 1 + (j.val - 1) = j.val; omega)).trans ?_
      exact level2_apply x b ⟨j.val - 1, by omega⟩
    · rw [if_neg h2]
      by_cases h3 : j.val < 21
      · rw [if_pos h3]
        refine (concatenate_apply_piece (1 : Fin 2) _ _ (ix2 b j) 2 (by exact (by omega : (2 : ℕ) < 4)) S16x16 _ rfl rfl 5 rfl
          (ix2 b ⟨j.val - 5, by omega⟩)
          (fun b' hb' => by match b' with | ⟨0, _⟩ => rfl | ⟨1, _⟩ => exact absurd rfl hb')
          (by show 5 + (j.val - 5) = j.val; omega)).trans ?_
        exact level4_apply x b ⟨j.val - 5, by omega⟩
      · rw [if_neg h3]
        refine (concatenate_apply_piece (1 : Fin 2) _ _ (ix2 b j) 3 (by exact (by omega : (3 : ℕ) < 4)) S16x64 _ rfl rfl 21 rfl
          (ix2 b ⟨j.val - 21, by omega⟩)
          (fun b' hb' => by match b' with | ⟨0, _⟩ => rfl | ⟨1, _⟩ => exact absurd rfl hb')
          (by show 21 + (j.val - 21) = j.val; omega)).trans ?_
        exact level8_apply x b ⟨j.val - 21, by omega⟩

end Cert.ReferenceIdeal.RefValue

end
-- ==== Proof.lean ====
/-
  Spatial pyramid average pooling of sixteen images [64, 256, 256] at levels 1, 2, 4, 8: the kernel, one image per grid
  point, against the whole-array reference.

  Both programs produce, at (b, j), entry j of the flattened pyramid of image b: for level n the average over all 64
  channels and the (256/n)-by-(256/n) bin (p, q), the bins of a level row by row, the levels one after another
  (Proof/PoolSums.lean, `pyramid`). The reference sums each bin directly and divides by the count. The kernel first sums
  over channels, then over 32-by-32 tiles into an 8-by-8 grid of fine bins, and gets a level's bin as the sum of a
  (8/n)-by-(8/n) patch of fine bins, dividing by the same count — the same float word on both sides, never evaluated.
  A patch of tiles summed is the bin summed: a regrouping of one sum, which holds on the extended reals by
  commutativity and associativity of addition alone, so the finiteness of the input is not used. The division is the
  same operation of the same two values on both sides.

  The idealization rewrote nothing, so `preserves` is trivial. The kernel's two frames are the generated ones; the
  reference's frame is its generated run with the result dropped.
-/
import proofs.«114564_j1958505087113_1_alg».proof.Defs
import proofs.«114564_j1958505087113_1_alg».proof.Proof.Gen.Kernel
import proofs.«114564_j1958505087113_1_alg».proof.Proof.Gen.Kernel.Skeleton
import proofs.«114564_j1958505087113_1_alg».proof.Proof.Gen.Kernel.Launch
import proofs.«114564_j1958505087113_1_alg».proof.Proof.Gen.Kernel.Points
import proofs.«114564_j1958505087113_1_alg».proof.Proof.Gen.Kernel.Frame
import proofs.«114564_j1958505087113_1_alg».proof.Proof.Gen.KernelIdeal
import proofs.«114564_j1958505087113_1_alg».proof.Proof.Gen.KernelIdeal.Skeleton
import proofs.«114564_j1958505087113_1_alg».proof.Proof.Gen.KernelIdeal.Launch
import proofs.«114564_j1958505087113_1_alg».proof.Proof.Gen.KernelIdeal.Points
import proofs.«114564_j1958505087113_1_alg».proof.Proof.Gen.KernelIdeal.Frame
import proofs.«114564_j1958505087113_1_alg».proof.Proof.Gen.ReferenceIdeal
import proofs.«114564_j1958505087113_1_alg».proof.Proof.Gen.Pre_finite_inputs
import proofs.«114564_j1958505087113_1_alg».proof.Proof.Gen.ReferenceIdeal.Run
import proofs.«114564_j1958505087113_1_alg».proof.Proof.Gen.ReferenceIdeal.Read
import proofs.«114564_j1958505087113_1_alg».proof.Proof.PoolSums
import proofs.«114564_j1958505087113_1_alg».proof.Proof.KernelPayload
import proofs.«114564_j1958505087113_1_alg».proof.Proof.KernelValue
import proofs.«114564_j1958505087113_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the flattened pyramids of the (agreeing) inputs. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, hagree c]
  funext i
  exact (congrArg _ (eq_ix2 i)).trans (Cert.ReferenceIdeal.RefValue.result_apply _ (i 0) (i 1))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
